-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S10 : S_.BroadcastsInDim S10 (![] : Fin 0 → Fin S10.rank)
  reducesTo_S10_S_d0 : S10.ReducesTo [0] S_
  bcast_S_S4096x10 : S_.BroadcastsInDim S4096x10 (![] : Fin 0 → Fin S4096x10.rank)
  reducesTo_S4096x10_S_d0_1 : S4096x10.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S10 .f32) (main_arg2 : FVec F S4096x10 .f32) (main_arg3 : FVec F S4096 .f32) (main_arg4 : FVec F S1024x4096 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S4096x10 .f32 := Host.absf main_arg2
  let main_cst_2 : FVec F S_ .f32 := constant S_ .f32 0x7F800000#32
  let main_v10 : FVec F S4096x10 .f32 := broadcastInDim S4096x10 ![] bcast_S_S4096x10 main_cst_2
  let main_v11 : IVec S4096x10 1 := cmpf .olt main_v9 main_v10
  let main_c_3 : IVec S_ 1 := constantI S_ 1 1#1
  let main_v12 : IVec S_ 1 := (fun x v => Host.reduce IntOp.andi x v reducesTo_S4096x10_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x4096x1024 : Shape := ⟨3, ![4, 4096, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S10x4096 : Shape := ⟨2, ![10, 4096]⟩
abbrev S4096x1024 : Shape := ⟨2, ![4096, 1024]⟩
abbrev S1x10 : Shape := ⟨2, ![1, 10]⟩
abbrev S1x4096 : Shape := ⟨2, ![1, 4096]⟩
abbrev S1x1024 : Shape := ⟨2, ![1, 1024]⟩
abbrev S512x128 : Shape := ⟨2, ![512, 128]⟩
abbrev S512x1024 : Shape := ⟨2, ![512, 1024]⟩
abbrev S512x10 : Shape := ⟨2, ![512, 10]⟩
abbrev S512x4096 : Shape := ⟨2, ![512, 4096]⟩

abbrev nBuf : Space → Nat
  | .hbm => 16
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S10, .f32⟩
  | .hbm, ⟨2, _⟩ => ⟨S4096x10, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S10x4096, .f32⟩
  | .hbm, ⟨8, _⟩ => ⟨S10x4096, .bf16⟩
  | .hbm, ⟨9, _⟩ => ⟨S4096x1024, .f32⟩
  | .hbm, ⟨10, _⟩ => ⟨S4096x1024, .bf16⟩
  | .hbm, ⟨11, _⟩ => ⟨S1x10, .f32⟩
  | .hbm, ⟨12, _⟩ => ⟨S1x4096, .f32⟩
  | .hbm, ⟨13, _⟩ => ⟨S1x1024, .f32⟩
  | .hbm, ⟨14, _⟩ => ⟨S16384x1024, .f32⟩
  | .hbm, ⟨15, _⟩ => ⟨S4x4096x1024, .f32⟩
  | .local _ .vmem, ⟨0, _⟩ => ⟨S512x128, .f32⟩
  | .local _ .vmem, ⟨1, _⟩ => ⟨S512x128, .f32⟩
  | .local _ .vmem, ⟨2, _⟩ => ⟨S1x10, .f32⟩
  | .local _ .vmem, ⟨3, _⟩ => ⟨S10x4096, .bf16⟩
  | .local _ .vmem, ⟨4, _⟩ => ⟨S1x4096, .f32⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x4096x1024_S16384x1024 : S4x4096x1024.ShapeCasts S16384x1024
  transposes_S4096x10_S10x4096_1_0 : S4096x10.Transposes [1, 0] S10x4096
  bitsLt_bf16_f32 : FTy.bits .bf16 < FTy.bits .f32
  transposes_S1024x4096_S4096x1024_1_0 : S1024x4096.Transposes [1, 0] S4096x1024
  shapeCasts_S10_S1x10 : S10.ShapeCasts S1x10
  shapeCasts_S4096_S1x4096 : S4096.ShapeCasts S1x4096
  shapeCasts_S1024_S1x1024 : S1024.ShapeCasts S1x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x10 : S512x128.Slices ![0, 0] S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S10x4096_S10x4096_0_0 : ∀ a, (![0, 0] : Fin 2 → Nat) a + S10x4096.size a ≤ S10x4096.size a
  h_S10x4096 : 0 < S10x4096.numel
  shapeCasts_S10x4096_S10x4096 : S10x4096.ShapeCasts S10x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S4x4096x1024 : S16384x1024.ShapeCasts S4x4096x1024
  dot_S512x10_S10x4096_S512x4096_1_0_0_1_n_n_wf : DotDims.WF S512x10 S10x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x1024.size a
  hwx0_0 : ∀ i : grid0.Coords, EltTy.bits .f32 = 32 ∨ (Rect.block (s := S16384x1024) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10.size a ≤ S1x10.size a
  hwx0_1 : ∀ i : grid0.Coords, EltTy.bits .f32 = 32 ∨ (Rect.block (s := S1x10) S1x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x4096.size a ≤ S10x4096.size a
  hwx0_2 : ∀ i : grid0.Coords, EltTy.bits .bf16 = 32 ∨ (Rect.block (s := S10x4096) S10x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x10_S10x4096_S512x4096_1_0_0_1_n_n : DotDims S512x10 S10x4096 S512x4096 where
  lhsContracting := [1]
  rhsContracting := [0]
  lhsNonContracting := [0]
  rhsNonContracting := [1]
  lhsBatch := []
  rhsBatch := []
  wf := dot_S512x10_S10x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S4x4096x10 : Shape := ⟨3, ![4, 4096, 10]⟩
abbrev S1x1x10 : Shape := ⟨3, ![1, 1, 10]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S10, .f32⟩
  | .hbm, ⟨2, _⟩ => ⟨S4096x10, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x4096x10, .f32⟩
  | .hbm, ⟨7, _⟩ => ⟨S4x4096x10, .f32⟩
  | .hbm, ⟨8, _⟩ => ⟨S10, .f32⟩
  | .hbm, ⟨9, _⟩ => ⟨S1x1x10, .f32⟩
  | .hbm, ⟨10, _⟩ => ⟨S4x4096x10, .f32⟩
  | .hbm, ⟨11, _⟩ => ⟨S4x4096x10, .f32⟩
  | .hbm, ⟨12, _⟩ => ⟨S4x4096x4096, .f32⟩
  | .hbm, ⟨13, _⟩ => ⟨S1x1x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S4x4096x1024_S4x4096x10_0_0_0 : S4x4096x1024.Slices ![0, 0, 0] S4x4096x10
  bcast_S10_S1x1x10_2 : S10.BroadcastsInDim S1x1x10 (![2] : Fin 1 → Fin S1x1x10.rank)
  bcast_S1x1x10_S4x4096x10_0_1_2 : S1x1x10.BroadcastsInDim S4x4096x10 (![0, 1, 2] : Fin 3 → Fin S4x4096x10.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x10_S4096x10_S4x4096x4096_2_1_01_0_n_n_wf : DotDims.WF S4x4096x10 S4096x10 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x10_S4096x10_S4x4096x4096_2_1_01_0_n_n : DotDims S4x4096x10 S4096x10 S4x4096x4096 where
  lhsContracting := [2]
  rhsContracting := [1]
  lhsNonContracting := [0, 1]
  rhsNonContracting := [0]
  lhsBatch := []
  rhsBatch := []
  wf := dot_S4x4096x10_S4096x10_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The feed-forward block as ONE function of its six argument arrays, index by index, over the extended reals.

  A token (b, s) carries ten encoded features, the first ten of its 1024 channels. Wire q's expectation is
  cos x_q · cos θ_q (`gate`); a hidden unit f is the ReLU of the gates' weighted sum plus its bias (`hiddenUnit`);
  an output channel e is the hidden units' weighted sum plus its bias (`outChannel`). Both programs compute exactly
  this, with the sums in this order and every product written left factor first, so no law of the extended
  reals beyond reading each operation at an index is needed to join them.
-/
import Idealize.ShloMosaic.PureOps.Ideal
import Idealize.ShloMosaic.Lib.ValueIdx

noncomputable section

open scoped BigOperators

namespace Cert.Ffn

open Idealize.ShloMosaic Idealize.ShloMosaic.ValueIdx

/-- The floor of the ReLU, as both programs spell it: the f32 word zero read as an extended real. -/
abbrev floor0 : EReal := Ideal.ofBits .f32 0x00000000#32

/-- One wire's expectation: the cosine of the encoded feature times the cosine of the wire's angle. -/
def gate (x th : EReal) : EReal := Ideal.cos x * Ideal.cos th

/-- One hidden unit: the ten gates weighted by the unit's row of the first layer, plus its bias, floored at zero. -/
def hiddenUnit (g w : Fin 10 → EReal) (b : EReal) : EReal := max ((∑ q : Fin 10, g q * w q) + b) floor0

/-- One output channel: the 4096 hidden units weighted by the channel's row of the second layer, plus its bias. -/
def outChannel (h w : Fin 4096 → EReal) (b : EReal) : EReal := (∑ f : Fin 4096, h f * w f) + b

/-- The first ten channels sit inside a row of 128 lanes and inside a row of 1024 channels. -/
theorem lt128 (q : Fin 10) : q.val < 128 := by have := q.isLt; omega
theorem lt1024 (q : Fin 10) : q.val < 1024 := by have := q.isLt; omega

/-- THE RESULT, over the arguments as the caller passes them: x [4, 4096, 1024], θ [10], W₁ [4096, 10], b₁ [4096],
    W₂ [1024, 4096], b₂ [1024]; at (b, s, e). -/
def ffn (X : (⟨3, ![4, 4096, 1024]⟩ : Shape).Idx → EReal) (TH : (⟨1, ![10]⟩ : Shape).Idx → EReal)
    (W1 : (⟨2, ![4096, 10]⟩ : Shape).Idx → EReal) (B1 : (⟨1, ![4096]⟩ : Shape).Idx → EReal)
    (W2 : (⟨2, ![1024, 4096]⟩ : Shape).Idx → EReal) (B2 : (⟨1, ![1024]⟩ : Shape).Idx → EReal) :
    (⟨3, ![4, 4096, 1024]⟩ : Shape).Idx → EReal := fun i =>
  outChannel (fun f => hiddenUnit (fun q => gate (X (ix3 (i 0) (i 1) ⟨q.val, lt1024 q⟩)) (TH (ix1 q))) (fun q => W1 (ix2 f q)) (B1 (ix1 f)))
    (fun f => W2 (ix2 (i 2) f)) (B2 (ix1 (i 2)))

/-- The same over the arrays as the kernel's region finds them: the tokens flattened to 16384 rows, θ and the biases
    as one-row matrices, the two weight matrices transposed; at (row, e). -/
def ffnRows (A0 : (⟨2, ![16384, 1024]⟩ : Shape).Idx → EReal) (A1 : (⟨2, ![1, 10]⟩ : Shape).Idx → EReal)
    (A2 : (⟨2, ![10, 4096]⟩ : Shape).Idx → EReal) (A3 : (⟨2, ![1, 4096]⟩ : Shape).Idx → EReal)
    (A4 : (⟨2, ![4096, 1024]⟩ : Shape).Idx → EReal) (A5 : (⟨2, ![1, 1024]⟩ : Shape).Idx → EReal) :
    (⟨2, ![16384, 1024]⟩ : Shape).Idx → EReal := fun i =>
  outChannel (fun f => hiddenUnit (fun q => gate (A0 (ix2 (i 0) ⟨q.val, lt1024 q⟩)) (A1 (ix2 (0 : Fin 1) q))) (fun q => A2 (ix2 q f)) (A3 (ix2 (0 : Fin 1) f)))
    (fun f => A4 (ix2 f (i 1))) (A5 (ix2 (0 : Fin 1) (i 1)))

end Cert.Ffn

end
-- ==== Proof.Payload.lean ====
/-
  The kernel body's one stored value, read at an entry (p, e) of the 512 × 1024 output block, at the ideal
  instance: the format changes to bf16 are the identity there, a product into a zero accumulator is the plain
  sum over the contracted axis, a one-row matrix broadcast down the rows is read at its one row, and the
  first ten lanes of the 128-lane block of x are the ten encoded features. What is left is `Cert.Ffn.outChannel` of
  `Cert.Ffn.hiddenUnit` of `Cert.Ffn.gate` of the loaded blocks' entries.
-/
import proofs.«101606_j65481071396002_1_alg».proof.Proof.Gen.KernelIdeal.Skeleton
import proofs.«101606_j65481071396002_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Ffn

/-! ## The two block products -/

theorem lhs_mm1_0 (i : S512x4096.Idx) (q : dot_S512x10_S10x4096_S512x4096_1_0_0_1_n_n.contr.Idx) :
    (dot_S512x10_S10x4096_S512x4096_1_0_0_1_n_n.lhsIdx i q 0).val = (i 0).val := by
  unfold DotDims.lhsIdx
  rw [dif_neg (show ¬(0 : Fin S512x10.rank) ∈ dot_S512x10_S10x4096_S512x4096_1_0_0_1_n_n.lhsBatch by decide), dif_pos (show (0 : Fin S512x10.rank) ∈ dot_S512x10_S10x4096_S512x4096_1_0_0_1_n_n.lhsNonContracting by decide)]
  rfl
theorem lhs_mm1_1 (i : S512x4096.Idx) (q : dot_S512x10_S10x4096_S512x4096_1_0_0_1_n_n.contr.Idx) :
    (dot_S512x10_S10x4096_S512x4096_1_0_0_1_n_n.lhsIdx i q 1).val = (q ⟨0, by decide⟩).val :=
  dot_S512x10_S10x4096_S512x4096_1_0_0_1_n_n.lhsIdx_val_of_single rfl i q
theorem rhs_mm1_0 (i : S512x4096.Idx) (q : dot_S512x10_S10x4096_S512x4096_1_0_0_1_n_n.contr.Idx) :
    (dot_S512x10_S10x4096_S512x4096_1_0_0_1_n_n.rhsIdx i q 0).val = (q ⟨0, by decide⟩).val :=
  dot_S512x10_S10x4096_S512x4096_1_0_0_1_n_n.rhsIdx_val_of_single rfl i q
theorem rhs_mm1_1 (i : S512x4096.Idx) (q : dot_S512x10_S10x4096_S512x4096_1_0_0_1_n_n.contr.Idx) :
    (dot_S512x10_S10x4096_S512x4096_1_0_0_1_n_n.rhsIdx i q 1).val = (i 1).val := by
  unfold DotDims.rhsIdx
  rw [dif_neg (show ¬(1 : Fin S10x4096.rank) ∈ dot_S512x10_S10x4096_S512x4096_1_0_0_1_n_n.rhsBatch by decide), dif_pos (show (1 : Fin S10x4096.rank) ∈ dot_S512x10_S10x4096_S512x4096_1_0_0_1_n_n.rhsNonContracting by decide)]
  rfl

/-- The block product into a zero accumulator, at (p, n): the sum over the contracted axis of row p of the left
    factor against column n of the right one. -/
theorem mm1_apply (a : FVec Ideal S512x10 .bf16) (b : FVec Ideal S10x4096 .bf16) (p : Fin 512) (n : Fin 4096) :
    matmul dot_S512x10_S10x4096_S512x4096_1_0_0_1_n_n none a b (constant S512x4096 .f32 0x00000000#32) (ix2 p n) = ∑ k : Fin 10, a (ix2 p k) * b (ix2 k n) := by
  simp only [matmul]
  rw [Ideal.matmul_constant_zero_apply, ← Equiv.sum_comp (ValueIdx.contrEquiv1 dot_S512x10_S10x4096_S512x4096_1_0_0_1_n_n 10 rfl rfl).symm]
  refine Finset.sum_congr rfl fun k _ => ?_
  have hk := ValueIdx.contrEquiv1_symm_val dot_S512x10_S10x4096_S512x4096_1_0_0_1_n_n 10 rfl rfl k
  have el : dot_S512x10_S10x4096_S512x4096_1_0_0_1_n_n.lhsIdx (ix2 p n) ((ValueIdx.contrEquiv1 dot_S512x10_S10x4096_S512x4096_1_0_0_1_n_n 10 rfl rfl).symm k) = ix2 p k := funext fun x => Fin.ext (by
    match x with
    | ⟨0, _⟩ => exact lhs_mm1_0 _ _
    | ⟨1, _⟩ => exact (lhs_mm1_1 _ _).trans hk)
  have er : dot_S512x10_S10x4096_S512x4096_1_0_0_1_n_n.rhsIdx (ix2 p n) ((ValueIdx.contrEquiv1 dot_S512x10_S10x4096_S512x4096_1_0_0_1_n_n 10 rfl rfl).symm k) = ix2 k n := funext fun x => Fin.ext (by
    match x with
    | ⟨0, _⟩ => exact (rhs_mm1_0 _ _).trans hk
    | ⟨1, _⟩ => exact rhs_mm1_1 _ _)
  rw [el, er]

theorem lhs_mm2_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_mm2_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_mm2_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_mm2_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The block product into a zero accumulator, at (p, n): the sum over the contracted axis of row p of the left
    factor against column n of the right one. -/
theorem mm2_apply (a : FVec Ideal S512x4096 .bf16) (b : FVec Ideal S4096x1024 .bf16) (p : Fin 512) (n : Fin 1024) :
    matmul dot_S512x4096_S4096x1024_S512x1024_1_0_0_1_n_n none a b (constant S512x1024 .f32 0x00000000#32) (ix2 p n) = ∑ k : Fin 4096, a (ix2 p k) * b (ix2 k n) := by
  simp only [matmul]
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p n) ((ValueIdx.contrEquiv1 dot_S512x4096_S4096x1024_S512x1024_1_0_0_1_n_n 4096 rfl rfl).symm k) = ix2 p k := funext fun x => Fin.ext (by
    match x with
    | ⟨0, _⟩ => exact lhs_mm2_0 _ _
    | ⟨1, _⟩ => exact (lhs_mm2_1 _ _).trans hk)
  have er : dot_S512x4096_S4096x1024_S512x1024_1_0_0_1_n_n.rhsIdx (ix2 p n) ((ValueIdx.contrEquiv1 dot_S512x4096_S4096x1024_S512x1024_1_0_0_1_n_n 4096 rfl rfl).symm k) = ix2 k n := funext fun x => Fin.ext (by
    match x with
    | ⟨0, _⟩ => exact (rhs_mm2_0 _ _).trans hk
    | ⟨1, _⟩ => exact rhs_mm2_1 _ _)
  rw [el, er]

/-! ## The layout operations of the body -/

/-- The first ten lanes of a 512 × 128 block. -/
theorem lanes10_apply (v : FVec Ideal S512x128 .f32) (p : Fin 512) (q : Fin 10) :
    extractStridedSlice S512x10 ![0, 0] v slices_S512x128_o0_0_S512x10 (ix2 p q) = v (ix2 p ⟨q.val, lt128 q⟩) :=
  extractStridedSlice_apply ![0, 0] v slices_S512x128_o0_0_S512x10 (ix2 p q) (ix2 p ⟨q.val, lt128 q⟩) (fun a => match a with
    | ⟨0, _⟩ => by show p.val = 0 + p.val; omega
    | ⟨1, _⟩ => by show q.val = 0 + q.val; omega)

/-! ## The payload at an entry -/

/-- THE STORED VALUE at (p, e): the output channel e of the token in row p of the block. -/
theorem pay_apply (x0 : Vec Ideal S512x128 .f32) (x1 : Vec Ideal S1x10 .f32) (x2 : Vec Ideal S10x4096 .bf16)
    (x3 : Vec Ideal S1x4096 .f32) (x4 : Vec Ideal S4096x1024 .bf16) (x5 : Vec Ideal S1x1024 .f32) (p : Fin 512) (e : Fin 1024) :
    k0_pay1 (F := Ideal) x0 x1 x2 x3 x4 x5 (ix2 p e)
      = outChannel (fun f => hiddenUnit (fun q => gate (x0 (ix2 p ⟨q.val, lt128 q⟩)) (x1 (ix2 (0 : Fin 1) q))) (fun q => x2 (ix2 q f)) (x3 (ix2 (0 : Fin 1) f)))
          (fun f => x4 (ix2 f e)) (x5 (ix2 (0 : Fin 1) e)) := by
  unfold k0_pay1
  simp only [shapeCast_self]
  rw [addf_apply, mm2_apply, broadcastTo_1b_ab_apply]
  unfold outChannel
  refine congrArg (· + x5 (ix2 (0 : Fin 1) e)) (Finset.sum_congr rfl fun f _ => congrArg (· * x4 (ix2 f e)) ?_)
  rw [truncf_apply, maximumf_apply, addf_apply, mm1_apply, broadcastTo_1b_ab_apply, broadcast_apply]
  unfold hiddenUnit
  refine congrArg (fun s => max (s + x3 (ix2 (0 : Fin 1) f)) floor0) (Finset.sum_congr rfl fun q _ => congrArg (· * x2 (ix2 q f)) ?_)
  rw [truncf_apply, mulf_apply, broadcastTo_1b_ab_apply]
  show Ideal.cos _ * Ideal.cos _ = gate _ _
  unfold gate
  rw [lanes10_apply]

end Cert.KernelIdeal.Pay

end
-- ==== Proof.Blocks.lean ====
/-
  From blocks to the array. Grid point t of the 32 handles tokens 512·t … 512·t + 511: it reads the first 128
  channels of those rows of the flattened x (window 0, block (t, 0)) and the five parameter arrays whole (their
  one block, at (0, 0), at every point), and writes back rows 512·t … 512·t + 511 of the result, all 1024
  channels (window 6, block (t, 0)). So what point t writes back is the block of `Cert.Ffn.ffnRows` of the
  arrays as the region finds them, the 32 blocks tile the 16384 rows, and the array ends at that function.
-/
import proofs.«101606_j65481071396002_1_alg».proof.Proof.Gen.KernelIdeal.Frame
import proofs.«101606_j65481071396002_1_alg».proof.Proof.Payload
import Idealize.ShloMosaic.Lib.Pipeline.Value

set_option maxRecDepth 16384

noncomputable section

open scoped BigOperators

namespace Cert.KernelIdeal.Blocks

open Cert.KernelIdeal Cert.KernelIdeal.Gen Cert.KernelIdeal.Pay Idealize.ShloMosaic Idealize.ShloMosaic.TcCoe
open Idealize.SL.Sem Idealize.ShloMosaic.ValueIdx Cert.Ffn
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps over the grid: the x window and the result window are at block (t, 0), every parameter
    window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## What each input window's block holds -/

/-- Row p, lane l of point t's block of x is row 512·t + p, channel l of the flattened x. -/
theorem read_x (c : Dev nD) (t : Fin cfg0.N) (y : S512x128.Idx) (i : S16384x1024.Idx)
    (h0 : (i 0).val = t.val * 512 + (y 0).val) (h1 : (i 1).val = (y 1).val) :
    iblk m c 0 t y = V m c main_v0 i := by
  obtain ⟨e00, e01, -⟩ := idx_facts t
  show V m c main_v0 (((cfg0.win 0).blk t).view.emb y) = V m c main_v0 i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 128 + 1 * (y 1).val = (i 1).val; omega

/-- The angle row's block is the row. -/
theorem read_th (c : Dev nD) (t : Fin cfg0.N) (y : S1x10.Idx) : iblk m c 1 t y = V m c main_v5 y := by
  obtain ⟨-, -, e10, e11, -⟩ := idx_facts t
  show V m c main_v5 (((cfg0.win 1).blk t).view.emb y) = V m c main_v5 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 10 + 1 * (y 1).val = (y 1).val; omega

/-- The first layer's block is the whole matrix. -/
theorem read_w1 (c : Dev nD) (t : Fin cfg0.N) (y : S10x4096.Idx) : iblk m c 2 t y = V m c main_v2 y := by
  obtain ⟨-, -, -, -, e20, e21, -⟩ := idx_facts t
  show V m c main_v2 (((cfg0.win 2).blk t).view.emb y) = V m c main_v2 y
  refine congrArg _ (funext fun a => Fin.ext ?_)
  match a with
  | ⟨0, _⟩ => show win0_2.index t (0 : Fin 2) * 10 + 1 * (y 0).val = (y 0).val; omega
  | ⟨1, _⟩ => show win0_2.index t (1 : Fin 2) * 4096 + 1 * (y 1).val = (y 1).val; omega

/-- The first bias row's block is the row. -/
theorem read_b1 (c : Dev nD) (t : Fin cfg0.N) (y : S1x4096.Idx) : iblk m c 3 t y = V m c main_v6 y := by
  obtain ⟨-, -, -, -, -, -, e30, e31, -⟩ := idx_facts t
  show V m c main_v6 (((cfg0.win 3).blk t).view.emb y) = V m c main_v6 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 4096 + 1 * (y 1).val = (y 1).val; omega

/-- The second layer's block is the whole matrix. -/
theorem read_w2 (c : Dev nD) (t : Fin cfg0.N) (y : S4096x1024.Idx) : iblk m c 4 t y = V m c main_v4 y := by
  obtain ⟨-, -, -, -, -, -, -, -, e40, e41, -⟩ := idx_facts t
  show V m c main_v4 (((cfg0.win 4).blk t).view.emb y) = V m c main_v4 y
  refine congrArg _ (funext fun a => Fin.ext ?_)
  match a with
  | ⟨0, _⟩ => show win0_4.index t (0 : Fin 2) * 4096 + 1 * (y 0).val = (y 0).val; omega
  | ⟨1, _⟩ => show win0_4.index t (1 : Fin 2) * 1024 + 1 * (y 1).val = (y 1).val; omega

/-- The second bias row's block is the row. -/
theorem read_b2 (c : Dev nD) (t : Fin cfg0.N) (y : S1x1024.Idx) : iblk m c 5 t y = V m c main_v7 y := by
  obtain ⟨-, -, -, -, -, -, -, -, -, -, e50, e51, -⟩ := idx_facts t
  show V m c main_v7 (((cfg0.win 5).blk t).view.emb y) = V m c main_v7 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-! ## What a point writes back -/

/-- The region-entry arrays' feed-forward block, by rows. -/
abbrev rowsOf (c : Dev nD) : S16384x1024.Idx → EReal :=
  ffnRows (V m c main_v0) (V m c main_v5) (V m c main_v2) (V m c main_v6) (V m c main_v4) (V m c main_v7)

/-- The payload over a block index given as a whole. -/
theorem pay_at (x0 : Vec Ideal S512x128 .f32) (x1 : Vec Ideal S1x10 .f32) (x2 : Vec Ideal S10x4096 .bf16)
    (x3 : Vec Ideal S1x4096 .f32) (x4 : Vec Ideal S4096x1024 .bf16) (x5 : Vec Ideal S1x1024 .f32) (y : S512x1024.Idx) :
    k0_pay1 (F := Ideal) x0 x1 x2 x3 x4 x5 y
      = outChannel (fun f => hiddenUnit (fun q => gate (x0 (ix2 (y 0) ⟨q.val, lt128 q⟩)) (x1 (ix2 (0 : Fin 1) q))) (fun q => x2 (ix2 q f)) (x3 (ix2 (0 : Fin 1) f)))
          (fun f => x4 (ix2 f (y 1))) (x5 (ix2 (0 : Fin 1) (y 1))) := by
  obtain ⟨p, e, rfl⟩ : ∃ (p : Fin 512) (e : Fin 1024), y = ix2 p e := ⟨y 0, y 1, eq_ix2 y⟩
  exact pay_apply x0 x1 x2 x3 x4 x5 p e

/-- WHAT POINT t WRITES BACK is its block of the feed-forward block of the arrays as the region finds them. -/
theorem flushed_eq (c : Dev nD) (t : Fin cfg0.N) :
    (dats m 0 c).flushed 6 t = ((cfg0.win 6).blk t).view.read (Elt Ideal) (rowsOf m c) := by
  show (cfg0.win 6).cut (grid0.coords t) ((dats m 0 c).after 6 t) = _
  rw [after0_6]
  unfold out0_6
  rw [View.canon_unit_zero hz]
  simp only [View.ld_unit_zero (S := S512x128) hz, View.ld_unit_zero (S := S1x10) hz, View.ld_unit_zero (S := S10x4096) hz,
    View.ld_unit_zero (S := S1x4096) hz, View.ld_unit_zero (S := S4096x1024) hz, View.ld_unit_zero (S := S1x1024) hz]
  obtain ⟨-, -, -, -, -, -, -, -, -, -, -, -, e60, e61⟩ := idx_facts t
  funext j
  show k0_pay1 (F := Ideal) (iblk m c 0 t) (iblk m c 1 t) (iblk m c 2 t) (iblk m c 3 t) (iblk m c 4 t) (iblk m c 5 t) j
    = rowsOf m c (((cfg0.win 6).blk t).view.emb j)
  refine (pay_at (iblk m c 0 t) (iblk m c 1 t) (iblk m c 2 t) (iblk m c 3 t) (iblk m c 4 t) (iblk m c 5 t) j).trans ?_
  have hr : ((((cfg0.win 6).blk t).view.emb j) 0).val = t.val * 512 + (j 0).val := by
    show win0_6.index t (0 : Fin 2) * 512 + 1 * (j 0).val = _; omega
  have hc : (((cfg0.win 6).blk t).view.emb j) 1 = j 1 := Fin.ext (by
    show win0_6.index t (1 : Fin 2) * 1024 + 1 * (j 1).val = (j 1).val; omega)
  unfold rowsOf ffnRows
  rw [hc]
  simp only [read_th m c t, read_w1 m c t, read_b1 m c t, read_w2 m c t, read_b2 m c t]
  refine congrArg (fun h => outChannel h (fun f => V m c main_v4 (ix2 f (j 1))) (V m c main_v7 (ix2 (0 : Fin 1) (j 1)))) (funext fun f => ?_)
  refine congrArg (fun g => hiddenUnit g (fun q => V m c main_v2 (ix2 q f)) (V m c main_v6 (ix2 (0 : Fin 1) f))) (funext fun q => ?_)
  exact congrArg (fun x => gate x (V m c main_v5 (ix2 (0 : Fin 1) q))) (read_x m c t _ _ hr rfl)

/-! ## The cover and the array after the run -/

/-- An index of the result array is in point t's block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v8).slice (win0_6.rect t)).set ↔ _
  rw [View.set_slice_whole, Rect.mem_set_unit]
  exact Iff.rfl

/-- Row r is written back by point r / 512. -/
theorem cover (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- THE RESULT ARRAY after the run: the feed-forward block of the arrays as the region finds them, row by row. -/
theorem final (c : Dev nD) : (dats m 0 c).arrAt 6 cfg0.N = rowsOf m c :=
  (dats m 0 c).arrAt_eq_of_cover 6 (rowsOf m c) (fun t _ => flushed_eq m c t) cover

end Cert.KernelIdeal.Blocks

end
-- ==== Proof.KernelValue.lean ====
/-
  The kernel program's result. Around the region the host only re-lays data: before it, x is flattened to
  16384 rows, θ and the two biases become one-row matrices, and the two weight matrices are transposed (and
  narrowed to bf16, the identity at the ideal instance); after it the 16384 rows are split back into batch and
  token. Row 4096·b + s of the flattened arrays is token (b, s), and entry (q, f) of a transposed matrix is entry
  (f, q) of the matrix, so the row form over the prepared arrays is `Cert.Ffn.ffn` of the arguments themselves.
-/
import proofs.«101606_j65481071396002_1_alg».proof.Proof.Gen.KernelIdeal.Frame
import proofs.«101606_j65481071396002_1_alg».proof.Proof.Blocks
import Idealize.ShloMosaic.Lib.StableHlo.Run
import Idealize.ShloMosaic.Lib.ValueLayout
import Idealize.ShloMosaic.Lib.ValueIdxCoords

set_option maxRecDepth 16384

noncomputable section

open scoped BigOperators

namespace Cert.KernelIdeal.KValue

open Cert.KernelIdeal Cert.KernelIdeal.Gen Cert.KernelIdeal.Blocks Idealize.ShloMosaic Idealize.ShloMosaic.TcCoe
open Idealize.SL.Sem Idealize.ShloMosaic.StableHlo Idealize.ShloMosaic.ValueIdx Cert.Ffn

variable (m : (ℓ : Loc nD τ sig) → Buf (Elt Ideal) ℓ) (ρ : Dev nD → PrngReg)

/-! ## The arrays as the region finds them -/

theorem v0_eq (c : Dev nD) : (V m c main_v0 : S16384x1024.Idx → EReal)
    = shapeCast S16384x1024 (m ((c : Thread nD τ).loc main_arg0)) shapeCasts_S4x4096x1024_S16384x1024 := by
  show StableHlo.after hostOps0 (fun b => m (c, b)) (Proc.devRef .tc main_v0) = _
  after_results <;> rfl
theorem v5_eq (c : Dev nD) : (V m c main_v5 : S1x10.Idx → EReal)
    = shapeCast S1x10 (m ((c : Thread nD τ).loc main_arg1)) shapeCasts_S10_S1x10 := by
  show StableHlo.after hostOps0 (fun b => m (c, b)) (Proc.devRef .tc main_v5) = _
  after_results <;> rfl
theorem v2_eq (c : Dev nD) : (V m c main_v2 : S10x4096.Idx → EReal)
    = (truncf .bf16 (transpose S10x4096 [1, 0] (m ((c : Thread nD τ).loc main_arg2)) transposes_S4096x10_S10x4096_1_0) bitsLt_bf16_f32 : FVec Ideal S10x4096 .bf16) := by
  show StableHlo.after hostOps0 (fun b => m (c, b)) (Proc.devRef .tc main_v2) = _
  after_results <;> rfl
theorem v6_eq (c : Dev nD) : (V m c main_v6 : S1x4096.Idx → EReal)
    = shapeCast S1x4096 (m ((c : Thread nD τ).loc main_arg3)) shapeCasts_S4096_S1x4096 := by
  show StableHlo.after hostOps0 (fun b => m (c, b)) (Proc.devRef .tc main_v6) = _
  after_results <;> rfl
theorem v4_eq (c : Dev nD) : (V m c main_v4 : S4096x1024.Idx → EReal)
    = (truncf .bf16 (transpose S4096x1024 [1, 0] (m ((c : Thread nD τ).loc main_arg4)) transposes_S1024x4096_S4096x1024_1_0) bitsLt_bf16_f32 : FVec Ideal S4096x1024 .bf16) := by
  show StableHlo.after hostOps0 (fun b => m (c, b)) (Proc.devRef .tc main_v4) = _
  after_results <;> rfl
theorem v7_eq (c : Dev nD) : (V m c main_v7 : S1x1024.Idx → EReal)
    = shapeCast S1x1024 (m ((c : Thread nD τ).loc main_arg5)) shapeCasts_S1024_S1x1024 := by
  show StableHlo.after hostOps0 (fun b => m (c, b)) (Proc.devRef .tc main_v7) = _
  after_results <;> rfl

/-! ## The row form over the prepared arrays is the block of the arguments -/

/-- Row 4096·b + s, channel e of the row form over the flattened and transposed arrays is entry (b, s, e) of the
    feed-forward block of the arrays themselves. -/
theorem rows_at (X : S4x4096x1024.Idx → EReal) (TH : S10.Idx → EReal) (W1 : S4096x10.Idx → EReal) (B1 : S4096.Idx → EReal)
    (W2 : S1024x4096.Idx → EReal) (B2 : S1024.Idx → EReal) (b : Fin 4) (s : Fin 4096) (e : Fin 1024) (r : Fin 16384)
    (hr : r.val = b.val * 4096 + s.val) :
    ffnRows (shapeCast S16384x1024 X shapeCasts_S4x4096x1024_S16384x1024) (shapeCast S1x10 TH shapeCasts_S10_S1x10)
        ((truncf .bf16 (transpose S10x4096 [1, 0] W1 transposes_S4096x10_S10x4096_1_0) bitsLt_bf16_f32 : FVec Ideal S10x4096 .bf16))
        (shapeCast S1x4096 B1 shapeCasts_S4096_S1x4096)
        ((truncf .bf16 (transpose S4096x1024 [1, 0] W2 transposes_S1024x4096_S4096x1024_1_0) bitsLt_bf16_f32 : FVec Ideal S4096x1024 .bf16))
        (shapeCast S1x1024 B2 shapeCasts_S1024_S1x1024) (ix2 r e)
      = ffn X TH W1 B1 W2 B2 (ix3 b s e) := by
  have hx : ∀ q : Fin 10, shapeCast S16384x1024 X shapeCasts_S4x4096x1024_S16384x1024 (ix2 r ⟨q.val, lt1024 q⟩) = X (ix3 b s ⟨q.val, lt1024 q⟩) := fun q =>
    shapeCast_apply X shapeCasts_S4x4096x1024_S16384x1024 (ix2 r ⟨q.val, lt1024 q⟩) (ix3 b s ⟨q.val, lt1024 q⟩) (by
      rw [Shape.rowMajor_val_three, Shape.rowMajor_val_two]
      show (b.val * 4096 + s.val) * 1024 + q.val = r.val * 1024 + q.val
      rw [hr])
  have hw1 : ∀ (q : Fin 10) (f : Fin 4096), transpose S10x4096 [1, 0] W1 transposes_S4096x10_S10x4096_1_0 (ix2 q f) = W1 (ix2 f q) :=
    fun q f => transpose_ix2_apply W1 transposes_S4096x10_S10x4096_1_0 q f
  have hw2 : ∀ (f : Fin 4096) (e : Fin 1024), transpose S4096x1024 [1, 0] W2 transposes_S1024x4096_S4096x1024_1_0 (ix2 f e) = W2 (ix2 e f) :=
    fun f e => transpose_ix2_apply W2 transposes_S1024x4096_S4096x1024_1_0 f e
  unfold ffnRows ffn
  simp only [ix2_0, ix2_1, ix3_0, ix3_1, ix3_2, truncf_apply, shapeCast_a_1a_apply, hx, hw1, hw2]

/-! ## The result buffer -/

/-- The region's result array as the lines after the region find it. -/
theorem region_arr (c : Dev nD) :
    Pipeline.withArrays spec0 c (V0 m c) (fun w => (dats m 0 c).arrAt w cfg0.N) (Proc.devRef .tc main_v8) = rowsOf m c :=
  (Pipeline.withArrays_arr spec0 launch0.win.arr_inj c _ _ 6).trans (Blocks.final m c)

/-- The rows split back into batch and token: the feed-forward block of the arguments. -/
theorem split_rows (c : Dev nD) :
    shapeCast S4x4096x1024 (rowsOf m c) shapeCasts_S16384x1024_S4x4096x1024
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, s, e, rfl⟩ : ∃ (b : Fin 4) (s : Fin 4096) (e : Fin 1024), i = ix3 b s e := ⟨i 0, i 1, i 2, eq_ix3 i⟩
  have hb : b.val < 4 := b.isLt
  have hs : s.val < 4096 := s.isLt
  rw [shapeCast_apply (rowsOf m c) shapeCasts_S16384x1024_S4x4096x1024 (ix3 b s e) (ix2 (⟨b.val * 4096 + s.val, by omega⟩ : Fin 16384) e) (by
    rw [Shape.rowMajor_val_three, Shape.rowMajor_val_two]; rfl)]
  unfold rowsOf
  rw [v0_eq, v5_eq, v2_eq, v6_eq, v4_eq, v7_eq]
  exact rows_at _ _ _ _ _ _ b s e _ rfl

/-- THE KERNEL PROGRAM'S RESULT BUFFER after the run. -/
theorem result_eq (c : Dev nD) :
    Pipeline.afterTail₀ cfgs (dats m) 0 (V0 m) [hostOps1] c main_v9
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v9) = _
  after_results
  show shapeCast S4x4096x1024 (Pipeline.withArrays spec0 c (V0 m c) (fun w => (dats m 0 c).arrAt w cfg0.N) (Proc.devRef .tc main_v8)) shapeCasts_S16384x1024_S4x4096x1024 = _
  rw [region_arr]
  exact split_rows m c

/-! ## The run, read -/

/-- Every weakly fair execution of the kernel program terminates with the result buffer at the feed-forward block
    of the arguments, and the arguments unchanged. -/
theorem run : θ_run defs (onTc (τ := τ) (main (F := Ideal))) ⟨m, fun _ => 0, ρ⟩ fun r => ∀ c : Dev nD,
      r.2.mem ((c.tc : Thread nD τ).loc main_v9)
        = ffn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefSide.lean ====
/-
  The reference's result is `Cert.Ffn.ffn` of its arguments, at the ideal instance.

  Its operations are read one at a time at an index (the generated stage lemmas): the slice of the first ten
  channels, the two cosines, the angle row broadcast over batch and token, their product; the einsum with W₁ as a
  sum over the ten wires, the bias broadcast, the ReLU against a broadcast zero; the einsum with W₂ as a sum over
  the 4096 hidden units, and the last bias. The index maps those lemmas compose are the coordinates themselves.
-/
import proofs.«101606_j65481071396002_1_alg».proof.Proof.Gen.ReferenceIdeal.Read
import proofs.«101606_j65481071396002_1_alg».proof.Proof.Spec

noncomputable section

open scoped BigOperators

namespace Cert.ReferenceIdeal.RefValue

open Cert.ReferenceIdeal Cert.ReferenceIdeal.Read Idealize.ShloMosaic Idealize.ShloMosaic.ValueIdx Cert.Ffn

/-! ## The composed index maps, coordinate by coordinate -/

/-- Output channel e against hidden unit k reads W₂ at (e, k). -/
theorem at_w2 (i : S4x4096x1024.Idx) (k : Fin 4096) : ridx_main_v11 i k = ix2 (i 2) k :=
  funext fun a => match a with | ⟨0, _⟩ => rfl | ⟨1, _⟩ => rfl
/-- The last bias is read at the output channel. -/
theorem at_b2 (i : S4x4096x1024.Idx) : idx_main_v12 (idx_main_v13 i) = ix1 (i 2) :=
  funext fun a => match a with | ⟨0, _⟩ => rfl
/-- The first bias is read at the hidden unit. -/
theorem at_b1 (i : S4x4096x1024.Idx) (k : Fin 4096) : idx_main_v7 (idx_main_v8 (lidx_main_v11 i k)) = ix1 k :=
  funext fun a => match a with | ⟨0, _⟩ => rfl
/-- Hidden unit k against wire q reads W₁ at (k, q). -/
theorem at_w1 (i : S4x4096x1024.Idx) (k : Fin 4096) (q : Fin 10) : ridx_main_v6 (lidx_main_v11 i k) q = ix2 k q :=
  funext fun a => match a with | ⟨0, _⟩ => rfl | ⟨1, _⟩ => rfl
/-- Wire q of token (b, s) reads x at (b, s, q). -/
theorem at_x (i : S4x4096x1024.Idx) (k : Fin 4096) (q : Fin 10) :
    idx_main_v0 (lidx_main_v6 (lidx_main_v11 i k) q) = ix3 (i 0) (i 1) ⟨q.val, lt1024 q⟩ :=
  funext fun a => match a with | ⟨0, _⟩ => rfl | ⟨1, _⟩ => rfl | ⟨2, _⟩ => rfl
/-- Wire q reads its angle at q. -/
theorem at_th (i : S4x4096x1024.Idx) (k : Fin 4096) (q : Fin 10) :
    idx_main_v3 (idx_main_v4 (lidx_main_v6 (lidx_main_v11 i k) q)) = ix1 q :=
  funext fun a => match a with | ⟨0, _⟩ => rfl

/-! ## The result -/

/-- THE REFERENCE'S RESULT is the feed-forward block of its arguments. -/
theorem ref_eq (x0 : (⟨S4x4096x1024, .f32⟩ : BufTy).Contents (Elt Ideal)) (x1 : (⟨S10, .f32⟩ : BufTy).Contents (Elt Ideal))
    (x2 : (⟨S4096x10, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal)) :
    val_main_v14 (F := Ideal) x0 x1 x2 x3 x4 x5 = ffn x0 x1 x2 x3 x4 x5 := by
  funext i
  rw [val_main_v14_apply, val_main_v11_apply, val_main_v13_apply, val_main_v12_apply, at_b2]
  unfold ffn outChannel
  show (∑ k : Fin 4096, _) + _ = (∑ f : Fin 4096, _) + _
  refine congrArg (· + x5 (ix1 (i 2))) (Finset.sum_congr rfl fun k _ => ?_)
  rw [at_w2]
  refine congrArg (· * x4 (ix2 (i 2) k)) ?_
  rw [val_main_v10_apply, val_main_v9_apply, val_main_v6_apply, val_main_v8_apply, val_main_v7_apply, at_b1,
    val_main_call0_v0_apply, val_main_call0_cst_apply]
  unfold hiddenUnit
  show max ((∑ q : Fin 10, _) + _) _ = max ((∑ q : Fin 10, _) + _) _
  refine congrArg (fun s => max (s + x3 (ix1 k)) floor0) (Finset.sum_congr rfl fun q _ => ?_)
  rw [at_w1]
  refine congrArg (· * x2 (ix2 k q)) ?_
  rw [val_main_v5_apply, val_main_v1_apply, val_main_v0_apply, at_x, val_main_v4_apply, val_main_v3_apply,
    val_main_v2_apply, at_th]
  rfl

end Cert.ReferenceIdeal.RefValue

end
-- ==== Proof.lean ====
/-
  The certificate of a token-wise feed-forward block: per token, ten "wire" expectations cos x_q · cos θ_q from the
  token's first ten channels, a 10 → 4096 linear layer with bias and ReLU, and a 4096 → 1024 linear layer with bias.

  The kernel walks the 16384 tokens in 32 tiles of 512, with the two weight matrices pre-transposed and the
  products fed in bf16; the reference is two einsums over the whole batch. Over the extended reals the bf16
  narrowings are the identity and a product into a zero accumulator is the plain sum, so both compute, at
  (b, s, e),   Σ_f max(Σ_q cos x[b,s,q] · cos θ[q] · W₁[f,q] + b₁[f], 0) · W₂[e,f] + b₂[e]
  with the same order of summation and of every product's factors (`Cert.Ffn.ffn`): the equivalence needs no
  law of the extended reals and never opens the finiteness precondition.

  The kernel's side: the stored value at an entry (Proof/Payload.lean), the 32 written-back blocks tiling the
  result (Proof/Blocks.lean), the host's re-layouts around the region (Proof/KernelValue.lean). The reference's
  side: its operations read one at a time at an index (Proof/RefSide.lean). The three frames are the generated
  ones; the idealization rewrote nothing, so `preserves` has nothing to state.
-/
import proofs.«101606_j65481071396002_1_alg».proof.Defs
import proofs.«101606_j65481071396002_1_alg».proof.Proof.Gen.Kernel
import proofs.«101606_j65481071396002_1_alg».proof.Proof.Gen.Kernel.Skeleton
import proofs.«101606_j65481071396002_1_alg».proof.Proof.Gen.Kernel.Launch
import proofs.«101606_j65481071396002_1_alg».proof.Proof.Gen.Kernel.Points
import proofs.«101606_j65481071396002_1_alg».proof.Proof.Gen.Kernel.Frame
import proofs.«101606_j65481071396002_1_alg».proof.Proof.Gen.KernelIdeal
import proofs.«101606_j65481071396002_1_alg».proof.Proof.Gen.KernelIdeal.Skeleton
import proofs.«101606_j65481071396002_1_alg».proof.Proof.Gen.KernelIdeal.Launch
import proofs.«101606_j65481071396002_1_alg».proof.Proof.Gen.KernelIdeal.Points
import proofs.«101606_j65481071396002_1_alg».proof.Proof.Gen.KernelIdeal.Frame
import proofs.«101606_j65481071396002_1_alg».proof.Proof.Gen.ReferenceIdeal
import proofs.«101606_j65481071396002_1_alg».proof.Proof.Gen.ReferenceIdeal.Run
import proofs.«101606_j65481071396002_1_alg».proof.Proof.Gen.ReferenceIdeal.Read
import proofs.«101606_j65481071396002_1_alg».proof.Proof.Gen.Pre_finite_inputs
import proofs.«101606_j65481071396002_1_alg».proof.Proof.KernelValue
import proofs.«101606_j65481071396002_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the result at the feed-forward block of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v14_eq _ _ _ _ _ _).trans (Cert.ReferenceIdeal.RefValue.ref_eq _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
